-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x16 : Shape := ⟨3, ![8, 4096, 16]⟩
abbrev S8x16x4096 : Shape := ⟨3, ![8, 16, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_
  bcast_S_S8x16x4096 : S_.BroadcastsInDim S8x16x4096 (![] : Fin 0 → Fin S8x16x4096.rank)
  reducesTo_S8x16x4096_S_d0_1_2 : S8x16x4096.ReducesTo [0, 1, 2] S_

variable [Facts]

def fn_part1 {F : FTy → Type} [FloatOps F] (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  main_v18

def fn {F : FTy → Type} [FloatOps F] (main_arg0 : FVec F S16384x4096 .f32) (main_arg1 : FVec F S16384x4096 .f32) (main_arg2 : FVec F S8x4096x16 .f32) (main_arg3 : FVec F S8x16x4096 .f32) (main_arg4 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S8x4096x16 .f32 := Host.absf main_arg2
  let main_cst_2 : FVec F S_ .f32 := constant S_ .f32 0x7F800000#32
  let main_v10 : FVec F S8x4096x16 .f32 := broadcastInDim S8x4096x16 ![] bcast_S_S8x4096x16 main_cst_2
  let main_v11 : IVec S8x4096x16 1 := cmpf .olt main_v9 main_v10
  let main_c_3 : IVec S_ 1 := constantI S_ 1 1#1
  let main_v12 : IVec S_ 1 := (fun x v => Host.reduce IntOp.andi x v reducesTo_S8x4096x16_S_d0_1_2 h_S_) main_v11 main_c_3
  let main_v13 : IVec S_ 1 := andi main_v8 main_v12
  let main_v14 : FVec F S8x16x4096 .f32 := Host.absf main_arg3
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_v13 main_v16
-- ==== Kernel.lean ====
abbrev S16384x4096 : Shape := ⟨2, ![16384, 4096]⟩
abbrev S8x4096x16 : Shape := ⟨3, ![8, 4096, 16]⟩
abbrev S8x16x4096 : Shape := ⟨3, ![8, 16, 4096]⟩
abbrev S16384 : Shape := ⟨1, ![16384]⟩
abbrev S16384x1 : Shape := ⟨2, ![16384, 1]⟩
abbrev S256x1 : Shape := ⟨2, ![256, 1]⟩
abbrev S256x4096 : Shape := ⟨2, ![256, 4096]⟩
abbrev S1x16x4096 : Shape := ⟨3, ![1, 16, 4096]⟩
abbrev S16x4096 : Shape := ⟨2, ![16, 4096]⟩
abbrev S256x16 : Shape := ⟨2, ![256, 16]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S8x4096x16, .f32⟩
  | .hbm, ⟨3, _⟩ => ⟨S8x16x4096, .f32⟩
  | .hbm, ⟨4, _⟩ => ⟨S16384, .i32⟩
  | .hbm, ⟨5, _⟩ => ⟨S16384x1, .i32⟩
  | .hbm, ⟨6, _⟩ => ⟨S8x16x4096, .f32⟩
  | .hbm, ⟨7, _⟩ => ⟨S16384x4096, .f32⟩
  | .local _ .vmem, ⟨0, _⟩ => ⟨S256x1, .i32⟩
  | .local _ .vmem, ⟨1, _⟩ => ⟨S256x1, .i32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S8x16x4096, .f32⟩
  | .local _ .vmem, ⟨7, _⟩ => ⟨S8x16x4096, .f32⟩
  | .local _ .vmem, ⟨8, _⟩ => ⟨S256x4096, .f32⟩
  | .local _ .vmem, ⟨9, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384_S16384x1 : S16384.ShapeCasts S16384x1
  transposes_S8x4096x16_S8x16x4096_0_2_1 : S8x4096x16.Transposes [0, 2, 1] S8x16x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  natLt_1_32 : 1 < 32
  broadcasts_S256x1_S256x4096 : S256x1.Broadcasts S256x4096
  bitsLt_bf16_f32 : FTy.bits .bf16 < FTy.bits .f32
  inb_S8x16x4096_S1x16x4096_0_0_0 : ∀ a, (![0, 0, 0] : Fin 3 → Nat) a + S1x16x4096.size a ≤ S8x16x4096.size a
  h_S1x16x4096 : 0 < S1x16x4096.numel
  shapeCasts_S1x16x4096_S16x4096 : S1x16x4096.ShapeCasts S16x4096
  inb_S8x16x4096_S1x16x4096_1_0_0 : ∀ a, (![1, 0, 0] : Fin 3 → Nat) a + S1x16x4096.size a ≤ S8x16x4096.size a
  inb_S8x16x4096_S1x16x4096_2_0_0 : ∀ a, (![2, 0, 0] : Fin 3 → Nat) a + S1x16x4096.size a ≤ S8x16x4096.size a
  inb_S8x16x4096_S1x16x4096_3_0_0 : ∀ a, (![3, 0, 0] : Fin 3 → Nat) a + S1x16x4096.size a ≤ S8x16x4096.size a
  inb_S8x16x4096_S1x16x4096_4_0_0 : ∀ a, (![4, 0, 0] : Fin 3 → Nat) a + S1x16x4096.size a ≤ S8x16x4096.size a
  inb_S8x16x4096_S1x16x4096_5_0_0 : ∀ a, (![5, 0, 0] : Fin 3 → Nat) a + S1x16x4096.size a ≤ S8x16x4096.size a
  inb_S8x16x4096_S1x16x4096_6_0_0 : ∀ a, (![6, 0, 0] : Fin 3 → Nat) a + S1x16x4096.size a ≤ S8x16x4096.size a
  inb_S8x16x4096_S1x16x4096_7_0_0 : ∀ a, (![7, 0, 0] : Fin 3 → Nat) a + S1x16x4096.size a ≤ S8x16x4096.size a
  dot_S256x4096_S16x4096_S256x16_1_1_0_0_n_n_wf : DotDims.WF S256x4096 S16x4096 S256x16 [1] [1] [0] [0] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S16384x1.size a
  hwx0_0 : ∀ i : grid0.Coords, EltTy.bits .i32 = 32 ∨ (Rect.block (s := S16384x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16x4096.size a ≤ S8x16x4096.size a
  hwx0_3 : ∀ i : grid0.Coords, EltTy.bits .f32 = 32 ∨ (Rect.block (s := S8x16x4096) S8x16x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x16x4096.size a ≤ S8x16x4096.size a
  hwx0_4 : ∀ i : grid0.Coords, EltTy.bits .f32 = 32 ∨ (Rect.block (s := S8x16x4096) S8x16x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S16384x4096.size a
  hwx0_5 : ∀ i : grid0.Coords, EltTy.bits .f32 = 32 ∨ (Rect.block (s := S16384x4096) S256x4096.size (cc0_transform_5 i) (hinb0_5 i)).WholeWords (EltTy.packing .f32)

variable [Facts₀]

def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8x16x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8x4096x16 : Shape := ⟨3, ![8, 4096, 16]⟩
abbrev S8x16x4096 : Shape := ⟨3, ![8, 16, 4096]⟩
abbrev S16384 : Shape := ⟨1, ![16384]⟩
abbrev S_ : Shape := ⟨0, ![]⟩
abbrev S16384x1 : Shape := ⟨2, ![16384, 1]⟩
abbrev S1x4096x16 : Shape := ⟨3, ![1, 4096, 16]⟩
abbrev S4096x16 : Shape := ⟨2, ![4096, 16]⟩
abbrev S16384x16 : Shape := ⟨2, ![16384, 16]⟩
abbrev S1x16x4096 : Shape := ⟨3, ![1, 16, 4096]⟩
abbrev S16x4096 : Shape := ⟨2, ![16, 4096]⟩

abbrev nBuf : Space → Nat
  | .hbm => 136
  | .vmem => 0
  | .smem => 0
  | _ => 0

abbrev hbmTy0_0 (i : Nat) : BufTy := match i % 128 with
  | 0 => ⟨S16384x4096, .f32⟩
  | 1 => ⟨S16384x4096, .f32⟩
  | 2 => ⟨S8x4096x16, .f32⟩
  | 3 => ⟨S8x16x4096, .f32⟩
  | 4 => ⟨S16384, .i32⟩
  | 5 => ⟨S_, .f32⟩
  | 6 => ⟨S16384x4096, .f32⟩
  | 7 => ⟨S_, .i32⟩
  | 8 => ⟨S16384, .i32⟩
  | 9 => ⟨S16384, .i1⟩
  | 10 => ⟨S16384x1, .i1⟩
  | 11 => ⟨S16384x1, .f32⟩
  | 12 => ⟨S16384x4096, .f32⟩
  | 13 => ⟨S16384x4096, .f32⟩
  | 14 => ⟨S1x4096x16, .f32⟩
  | 15 => ⟨S4096x16, .f32⟩
  | 16 => ⟨S16384x16, .f32⟩
  | 17 => ⟨S1x16x4096, .f32⟩
  | 18 => ⟨S16x4096, .f32⟩
  | 19 => ⟨S16384x4096, .f32⟩
  | 20 => ⟨S16384x4096, .f32⟩
  | 21 => ⟨S16384x4096, .f32⟩
  | 22 => ⟨S16384x4096, .f32⟩
  | 23 => ⟨S_, .i32⟩
  | 24 => ⟨S16384, .i32⟩
  | 25 => ⟨S16384, .i1⟩
  | 26 => ⟨S16384x1, .i1⟩
  | 27 => ⟨S16384x1, .f32⟩
  | 28 => ⟨S16384x4096, .f32⟩
  | 29 => ⟨S16384x4096, .f32⟩
  | 30 => ⟨S1x4096x16, .f32⟩
  | 31 => ⟨S4096x16, .f32⟩
  | 32 => ⟨S16384x16, .f32⟩
  | 33 => ⟨S1x16x4096, .f32⟩
  | 34 => ⟨S16x4096, .f32⟩
  | 35 => ⟨S16384x4096, .f32⟩
  | 36 => ⟨S16384x4096, .f32⟩
  | 37 => ⟨S16384x4096, .f32⟩
  | 38 => ⟨S16384x4096, .f32⟩
  | 39 => ⟨S_, .i32⟩
  | 40 => ⟨S16384, .i32⟩
  | 41 => ⟨S16384, .i1⟩
  | 42 => ⟨S16384x1, .i1⟩
  | 43 => ⟨S16384x1, .f32⟩
  | 44 => ⟨S16384x4096, .f32⟩
  | 45 => ⟨S16384x4096, .f32⟩
  | 46 => ⟨S1x4096x16, .f32⟩
  | 47 => ⟨S4096x16, .f32⟩
  | 48 => ⟨S16384x16, .f32⟩
  | 49 => ⟨S1x16x4096, .f32⟩
  | 50 => ⟨S16x4096, .f32⟩
  | 51 => ⟨S16384x4096, .f32⟩
  | 52 => ⟨S16384x4096, .f32⟩
  | 53 => ⟨S16384x4096, .f32⟩
  | 54 => ⟨S16384x4096, .f32⟩
  | 55 => ⟨S_, .i32⟩
  | 56 => ⟨S16384, .i32⟩
  | 57 => ⟨S16384, .i1⟩
  | 58 => ⟨S16384x1, .i1⟩
  | 59 => ⟨S16384x1, .f32⟩
  | 60 => ⟨S16384x4096, .f32⟩
  | 61 => ⟨S16384x4096, .f32⟩
  | 62 => ⟨S1x4096x16, .f32⟩
  | 63 => ⟨S4096x16, .f32⟩
  | 64 => ⟨S16384x16, .f32⟩
  | 65 => ⟨S1x16x4096, .f32⟩
  | 66 => ⟨S16x4096, .f32⟩
  | 67 => ⟨S16384x4096, .f32⟩
  | 68 => ⟨S16384x4096, .f32⟩
  | 69 => ⟨S16384x4096, .f32⟩
  | 70 => ⟨S16384x4096, .f32⟩
  | 71 => ⟨S_, .i32⟩
  | 72 => ⟨S16384, .i32⟩
  | 73 => ⟨S16384, .i1⟩
  | 74 => ⟨S16384x1, .i1⟩
  | 75 => ⟨S16384x1, .f32⟩
  | 76 => ⟨S16384x4096, .f32⟩
  | 77 => ⟨S16384x4096, .f32⟩
  | 78 => ⟨S1x4096x16, .f32⟩
  | 79 => ⟨S4096x16, .f32⟩
  | 80 => ⟨S16384x16, .f32⟩
  | 81 => ⟨S1x16x4096, .f32⟩
  | 82 => ⟨S16x4096, .f32⟩
  | 83 => ⟨S16384x4096, .f32⟩
  | 84 => ⟨S16384x4096, .f32⟩
  | 85 => ⟨S16384x4096, .f32⟩
  | 86 => ⟨S16384x4096, .f32⟩
  | 87 => ⟨S_, .i32⟩
  | 88 => ⟨S16384, .i32⟩
  | 89 => ⟨S16384, .i1⟩
  | 90 => ⟨S16384x1, .i1⟩
  | 91 => ⟨S16384x1, .f32⟩
  | 92 => ⟨S16384x4096, .f32⟩
  | 93 => ⟨S16384x4096, .f32⟩
  | 94 => ⟨S1x4096x16, .f32⟩
  | 95 => ⟨S4096x16, .f32⟩
  | 96 => ⟨S16384x16, .f32⟩
  | 97 => ⟨S1x16x4096, .f32⟩
  | 98 => ⟨S16x4096, .f32⟩
  | 99 => ⟨S16384x4096, .f32⟩
  | 100 => ⟨S16384x4096, .f32⟩
  | 101 => ⟨S16384x4096, .f32⟩
  | 102 => ⟨S16384x4096, .f32⟩
  | 103 => ⟨S_, .i32⟩
  | 104 => ⟨S16384, .i32⟩
  | 105 => ⟨S16384, .i1⟩
  | 106 => ⟨S16384x1, .i1⟩
  | 107 => ⟨S16384x1, .f32⟩
  | 108 => ⟨S16384x4096, .f32⟩
  | 109 => ⟨S16384x4096, .f32⟩
  | 110 => ⟨S1x4096x16, .f32⟩
  | 111 => ⟨S4096x16, .f32⟩
  | 112 => ⟨S16384x16, .f32⟩
  | 113 => ⟨S1x16x4096, .f32⟩
  | 114 => ⟨S16x4096, .f32⟩
  | 115 => ⟨S16384x4096, .f32⟩
  | 116 => ⟨S16384x4096, .f32⟩
  | 117 => ⟨S16384x4096, .f32⟩
  | 118 => ⟨S16384x4096, .f32⟩
  | 119 => ⟨S_, .i32⟩
  | 120 => ⟨S16384, .i32⟩
  | 121 => ⟨S16384, .i1⟩
  | 122 => ⟨S16384x1, .i1⟩
  | 123 => ⟨S16384x1, .f32⟩
  | 124 => ⟨S16384x4096, .f32⟩
  | 125 => ⟨S16384x4096, .f32⟩
  | 126 => ⟨S1x4096x16, .f32⟩
  | 127 => ⟨S4096x16, .f32⟩
  | _ => ⟨S16384x4096, .f32⟩

abbrev hbmTy0_1 (i : Nat) : BufTy := match i % 128 with
  | 0 => ⟨S16384x16, .f32⟩
  | 1 => ⟨S1x16x4096, .f32⟩
  | 2 => ⟨S16x4096, .f32⟩
  | 3 => ⟨S16384x4096, .f32⟩
  | 4 => ⟨S16384x4096, .f32⟩
  | 5 => ⟨S16384x4096, .f32⟩
  | 6 => ⟨S16384x4096, .f32⟩
  | 7 => ⟨S16384x4096, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_c_2 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_3 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_c_4 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_c_5 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_c_6 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  slices_S8x4096x16_S1x4096x16_0_0_0 : S8x4096x16.Slices ![0, 0, 0] S1x4096x16
  shapeCasts_S1x4096x16_S4096x16 : S1x4096x16.ShapeCasts S4096x16
  slices_S8x16x4096_S1x16x4096_0_0_0 : S8x16x4096.Slices ![0, 0, 0] S1x16x4096
  shapeCasts_S1x16x4096_S16x4096 : S1x16x4096.ShapeCasts S16x4096
  slices_S8x4096x16_S1x4096x16_1_0_0 : S8x4096x16.Slices ![1, 0, 0] S1x4096x16
  slices_S8x16x4096_S1x16x4096_1_0_0 : S8x16x4096.Slices ![1, 0, 0] S1x16x4096
  slices_S8x4096x16_S1x4096x16_2_0_0 : S8x4096x16.Slices ![2, 0, 0] S1x4096x16
  slices_S8x16x4096_S1x16x4096_2_0_0 : S8x16x4096.Slices ![2, 0, 0] S1x16x4096
  slices_S8x4096x16_S1x4096x16_3_0_0 : S8x4096x16.Slices ![3, 0, 0] S1x4096x16
  slices_S8x16x4096_S1x16x4096_3_0_0 : S8x16x4096.Slices ![3, 0, 0] S1x16x4096
  slices_S8x4096x16_S1x4096x16_4_0_0 : S8x4096x16.Slices ![4, 0, 0] S1x4096x16
  slices_S8x16x4096_S1x16x4096_4_0_0 : S8x16x4096.Slices ![4, 0, 0] S1x16x4096
  slices_S8x4096x16_S1x4096x16_5_0_0 : S8x4096x16.Slices ![5, 0, 0] S1x4096x16
  slices_S8x16x4096_S1x16x4096_5_0_0 : S8x16x4096.Slices ![5, 0, 0] S1x16x4096
  slices_S8x4096x16_S1x4096x16_6_0_0 : S8x4096x16.Slices ![6, 0, 0] S1x4096x16
  slices_S8x16x4096_S1x16x4096_6_0_0 : S8x16x4096.Slices ![6, 0, 0] S1x16x4096
  slices_S8x4096x16_S1x4096x16_7_0_0 : S8x4096x16.Slices ![7, 0, 0] S1x4096x16
  slices_S8x16x4096_S1x16x4096_7_0_0 : S8x16x4096.Slices ![7, 0, 0] S1x16x4096
  dot_S16384x4096_S4096x16_S16384x16_1_0_0_1_n_n_wf : DotDims.WF S16384x4096 S4096x16 S16384x16 [1] [0] [0] [1] [] []
  dot_S16384x16_S16x4096_S16384x4096_1_0_0_1_n_n_wf : DotDims.WF S16384x16 S16x4096 S16384x4096 [1] [0] [0] [1] [] []

variable [Facts₀]

def dot_S16384x4096_S4096x16_S16384x16_1_0_0_1_n_n : DotDims S16384x4096 S4096x16 S16384x16 where
  lhsContracting := [1]
  rhsContracting := [0]
  lhsNonContracting := [0]
  rhsNonContracting := [1]
  lhsBatch := []
  rhsBatch := []
  wf := dot_S16384x4096_S4096x16_S16384x16_1_0_0_1_n_n_wf
def dot_S16384x16_S16x4096_S16384x4096_1_0_0_1_n_n : DotDims S16384x16 S16x4096 S16384x4096 where
  lhsContracting := [1]
  rhsContracting := [0]
  lhsNonContracting := [0]
  rhsNonContracting := [1]
  lhsBatch := []
  rhsBatch := []
  wf := dot_S16384x16_S16x4096_S16384x4096_1_0_0_1_n_n_wf

class Facts : Prop extends Facts₀ where

variable [Facts]
-- ==== Proof.Spec.lean ====
/-
  Multi-adapter low-rank update, as one function of the argument arrays.

  Every token (row) t carries an adapter word; for each of the eight adapters n the token's gate is 1 when its
  word is the adapter's and 0 otherwise.  The adapter's contribution to entry (t, o) is the gated row of x
  contracted with the adapter's down-projection A[n] (a 4096 × 16 matrix) and then with column o of its
  up-projection B[n] (16 × 4096):

      lowRank(t, o) = Σ_r ( Σ_h (x[t,h] · gate) · A[n,h,r] ) · B[n,r,o].

  The result is  res[t,o] + lowRank₀ + … + lowRank₇.  One program adds the eight contributions to res one after the
  other; the other first sums them from zero, multiplying each once more by its gate, and adds res last.  The two
  agree on the extended reals with no finiteness assumption: addition there is a commutative monoid, and a gate is
  0 or 1 — where it is 1 the extra factor is the unit, and where it is 0 every product under the sums already has a
  zero factor (0 · y = 0 for every extended real y), so the contribution is 0 and so is its product with the gate.
-/
import Idealize.ShloMosaic.PureOps.Ideal
import Idealize.ShloMosaic.Lib.ValueIdx

noncomputable section

open scoped BigOperators

namespace Cert.LowRank

open Idealize.ShloMosaic Idealize.ShloMosaic.ValueIdx

/-- A token's gate for the adapter whose word is c: 1 when the token's adapter word w is c, else 0. -/
def gate (w c : BitVec 32) : EReal := if w = c then 1 else 0

theorem gate_one_or_zero (w c : BitVec 32) : gate w c = 1 ∨ gate w c = 0 := by
  unfold gate; by_cases h : w = c
  · exact Or.inl (if_pos h)
  · exact Or.inr (if_neg h)

/-- One adapter's contribution to one entry: the gated row contracted with the down-projection a, then with a
    column b of the up-projection. -/
def lowRank (row : Fin 4096 → EReal) (g : EReal) (a : Fin 4096 → Fin 16 → EReal) (b : Fin 16 → EReal) : EReal :=
  ∑ r : Fin 16, (∑ h : Fin 4096, (row h * g) * a h r) * b r

/-- With the gate closed every product under the two sums has a zero factor. -/
theorem lowRank_zero (row : Fin 4096 → EReal) (a : Fin 4096 → Fin 16 → EReal) (b : Fin 16 → EReal) :
    lowRank row 0 a b = 0 := by
  unfold lowRank
  refine Finset.sum_eq_zero fun r _ => ?_
  rw [Finset.sum_eq_zero (fun h _ => by rw [mul_zero, zero_mul]), zero_mul]

/-- A contribution times its own gate is the contribution: the gate is the unit, or both sides are zero. -/
theorem lowRank_mul_gate (row : Fin 4096 → EReal) (g : EReal) (hg : g = 1 ∨ g = 0)
    (a : Fin 4096 → Fin 16 → EReal) (b : Fin 16 → EReal) : lowRank row g a b * g = lowRank row g a b := by
  rcases hg with rfl | rfl
  · exact mul_one _
  · rw [lowRank_zero, mul_zero]

/-- Adapter n's contribution to entry j of the result, its gate decided by the adapter word c. -/
def term (x : (⟨2, ![16384, 4096]⟩ : Shape).Idx → EReal) (A : (⟨3, ![8, 4096, 16]⟩ : Shape).Idx → EReal)
    (B : (⟨3, ![8, 16, 4096]⟩ : Shape).Idx → EReal) (idx : (⟨1, ![16384]⟩ : Shape).Idx → BitVec 32)
    (c : BitVec 32) (n : Fin 8) (j : (⟨2, ![16384, 4096]⟩ : Shape).Idx) : EReal :=
  lowRank (fun h => x (ix2 (j 0) h)) (gate (idx (ix1 (j 0))) c) (fun h r => A (ix3 n h r)) (fun r => B (ix3 n r (j 1)))

/-- The result array: res plus the eight adapters' contributions, added one after the other. -/
def G (res x : (⟨2, ![16384, 4096]⟩ : Shape).Idx → EReal) (A : (⟨3, ![8, 4096, 16]⟩ : Shape).Idx → EReal)
    (B : (⟨3, ![8, 16, 4096]⟩ : Shape).Idx → EReal) (idx : (⟨1, ![16384]⟩ : Shape).Idx → BitVec 32) :
    (⟨2, ![16384, 4096]⟩ : Shape).Idx → EReal := fun j =>
  res j + term x A B idx 0#32 0 j + term x A B idx 1#32 1 j + term x A B idx 2#32 2 j + term x A B idx 3#32 3 j
    + term x A B idx 4#32 4 j + term x A B idx 5#32 5 j + term x A B idx 6#32 6 j + term x A B idx 7#32 7 j

/-- Summing the gated contributions from zero and adding res last gives the same entry. -/
theorem sum_from_zero_eq_G (res x : (⟨2, ![16384, 4096]⟩ : Shape).Idx → EReal) (A : (⟨3, ![8, 4096, 16]⟩ : Shape).Idx → EReal)
    (B : (⟨3, ![8, 16, 4096]⟩ : Shape).Idx → EReal) (idx : (⟨1, ![16384]⟩ : Shape).Idx → BitVec 32)
    (j : (⟨2, ![16384, 4096]⟩ : Shape).Idx) :
    res j + (0 + term x A B idx 0#32 0 j * gate (idx (ix1 (j 0))) 0#32
        + term x A B idx 1#32 1 j * gate (idx (ix1 (j 0))) 1#32
        + term x A B idx 2#32 2 j * gate (idx (ix1 (j 0))) 2#32
        + term x A B idx 3#32 3 j * gate (idx (ix1 (j 0))) 3#32
        + term x A B idx 4#32 4 j * gate (idx (ix1 (j 0))) 4#32
        + term x A B idx 5#32 5 j * gate (idx (ix1 (j 0))) 5#32
        + term x A B idx 6#32 6 j * gate (idx (ix1 (j 0))) 6#32
        + term x A B idx 7#32 7 j * gate (idx (ix1 (j 0))) 7#32)
      = G res x A B idx j := by
  have hm : ∀ (c : BitVec 32) (n : Fin 8),
      term x A B idx c n j * gate (idx (ix1 (j 0))) c = term x A B idx c n j := fun c n =>
    lowRank_mul_gate _ _ (gate_one_or_zero _ _) _ _
  simp only [hm, G, zero_add, add_assoc]

/-! ## The two spellings of a gate -/

/-- A one-bit equality test widened to a word and read as a signed integer is the gate. -/
theorem gate_of_sitofp (w c : BitVec 32) :
    (((((IntOp.cmpi .eq w c : BitVec 1).setWidth 32).toInt : ℝ)) : EReal) = gate w c := by
  unfold gate
  by_cases h : w = c
  · subst h; simp [IntOp.cmpi]
  · have hb : (w == c) = false := beq_eq_false_iff_ne.mpr h
    simp [IntOp.cmpi, h, hb]

/-- The same test read as an unsigned one-bit integer is the gate. -/
theorem gate_of_uitofp (w c : BitVec 32) :
    ((((IntOp.cmpi .eq w c : BitVec 1).toNat : ℝ)) : EReal) = gate w c := by
  unfold gate
  by_cases h : w = c
  · subst h; simp [IntOp.cmpi]
  · have hb : (w == c) = false := beq_eq_false_iff_ne.mpr h
    simp [IntOp.cmpi, h, hb]

end Cert.LowRank

end
-- ==== Proof.Block.lean ====
/-
  What one grid point of the kernel computes, entry by entry, from the five blocks it is handed.

  A grid point holds 256 consecutive tokens: their adapter words (a 256 × 1 column), their rows of x and of res
  (256 × 4096 each), and the two whole weight tables (8 × 16 × 4096 each; the down-projection is handed over with its
  last two axes exchanged, so slab n of it holds A[n]ᵀ).  For each adapter the body gates the rows of x by the
  column "word = adapter", contracts them over the 4096 features with the adapter's transposed slab (a product
  X · Aᵀ written as a contraction of the two LAST axes), contracts the 16 results with the adapter's slab of B, and
  adds the 256 × 4096 product to the accumulator that started as the res block.  Read at entry (p, q) each product is
  the double sum  Σ_r (Σ_h (x[p,h] · gate) · At[n,r,h]) · B[n,r,q]  — the narrowing format changes in between
  are the identity on extended reals and a product into a zero accumulator is the bare sum.
-/
import proofs.«101251_j65738769433003_1_alg».proof.Proof.Gen.KernelIdeal.Frame
import proofs.«101251_j65738769433003_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.LowRank

/-! ## The two contractions read at an entry -/

theorem lhs_down_0 (i : S256x16.Idx) (q : dot_S256x4096_S16x4096_S256x16_1_1_0_0_n_n.contr.Idx) :
    (dot_S256x4096_S16x4096_S256x16_1_1_0_0_n_n.lhsIdx i q 0).val = (i 0).val := by
  unfold DotDims.lhsIdx
  rw [dif_neg (show ¬(0 : Fin S256x4096.rank) ∈ dot_S256x4096_S16x4096_S256x16_1_1_0_0_n_n.lhsBatch by decide), dif_pos (show (0 : Fin S256x4096.rank) ∈ dot_S256x4096_S16x4096_S256x16_1_1_0_0_n_n.lhsNonContracting by decide)]
  rfl
theorem lhs_down_1 (i : S256x16.Idx) (q : dot_S256x4096_S16x4096_S256x16_1_1_0_0_n_n.contr.Idx) :
    (dot_S256x4096_S16x4096_S256x16_1_1_0_0_n_n.lhsIdx i q 1).val = (q ⟨0, by decide⟩).val :=
  dot_S256x4096_S16x4096_S256x16_1_1_0_0_n_n.lhsIdx_val_of_single rfl i q
theorem rhs_down_0 (i : S256x16.Idx) (q : dot_S256x4096_S16x4096_S256x16_1_1_0_0_n_n.contr.Idx) :
    (dot_S256x4096_S16x4096_S256x16_1_1_0_0_n_n.rhsIdx i q 0).val = (i 1).val := by
  unfold DotDims.rhsIdx
  rw [dif_neg (show ¬(0 : Fin S16x4096.rank) ∈ dot_S256x4096_S16x4096_S256x16_1_1_0_0_n_n.rhsBatch by decide), dif_pos (show (0 : Fin S16x4096.rank) ∈ dot_S256x4096_S16x4096_S256x16_1_1_0_0_n_n.rhsNonContracting by decide)]
  rfl
theorem rhs_down_1 (i : S256x16.Idx) (q : dot_S256x4096_S16x4096_S256x16_1_1_0_0_n_n.contr.Idx) :
    (dot_S256x4096_S16x4096_S256x16_1_1_0_0_n_n.rhsIdx i q 1).val = (q ⟨0, by decide⟩).val :=
  dot_S256x4096_S16x4096_S256x16_1_1_0_0_n_n.rhsIdx_val_of_single rfl i q

/-- The down-projection step, a contraction of the two operands' last axes into a zero accumulator, at entry
    (p, r): the sum over the 4096 features of left row p times right row r. -/
theorem down_apply (L : FVec Ideal S256x4096 .bf16) (R : FVec Ideal S16x4096 .bf16) (p : Fin 256) (r : Fin 16) :
    matmul dot_S256x4096_S16x4096_S256x16_1_1_0_0_n_n none L R (constant (F := Ideal) S256x16 .f32 0x00000000#32) (ix2 p r)
      = ∑ h : Fin 4096, L (ix2 p h) * R (ix2 r h) := by
  simp only [matmul]
  rw [Ideal.matmul_constant_zero_apply, ← Equiv.sum_comp (ValueIdx.contrEquiv1 dot_S256x4096_S16x4096_S256x16_1_1_0_0_n_n 4096 rfl rfl).symm]
  refine Finset.sum_congr rfl fun k _ => ?_
  have hk := ValueIdx.contrEquiv1_symm_val dot_S256x4096_S16x4096_S256x16_1_1_0_0_n_n 4096 rfl rfl k
  have el : dot_S256x4096_S16x4096_S256x16_1_1_0_0_n_n.lhsIdx (ix2 p r) ((ValueIdx.contrEquiv1 dot_S256x4096_S16x4096_S256x16_1_1_0_0_n_n 4096 rfl rfl).symm k) = ix2 p k := funext fun a => Fin.ext (by
    match a with
    | ⟨0, _⟩ => exact lhs_down_0 _ _
    | ⟨1, _⟩ => exact (lhs_down_1 _ _).trans hk)
  have er : dot_S256x4096_S16x4096_S256x16_1_1_0_0_n_n.rhsIdx (ix2 p r) ((ValueIdx.contrEquiv1 dot_S256x4096_S16x4096_S256x16_1_1_0_0_n_n 4096 rfl rfl).symm k) = ix2 r k := funext fun a => Fin.ext (by
    match a with
    | ⟨0, _⟩ => exact rhs_down_0 _ _
    | ⟨1, _⟩ => exact (rhs_down_1 _ _).trans hk)
  rw [el, er]

theorem lhs_up_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lhs_up_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem rhs_up_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem rhs_up_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- The up-projection step, an ordinary matrix product into a zero accumulator, at entry (p, q): the sum over the
    16 ranks of left entry (p, r) times right entry (r, q). -/
theorem up_apply (L : FVec Ideal S256x16 .bf16) (R : FVec Ideal S16x4096 .bf16) (p : Fin 256) (q : Fin 4096) :
    matmul dot_S256x16_S16x4096_S256x4096_1_0_0_1_n_n none L R (constant (F := Ideal) S256x4096 .f32 0x00000000#32) (ix2 p q)
      = ∑ r : Fin 16, L (ix2 p r) * R (ix2 r q) := by
  simp only [matmul]
  rw [Ideal.matmul_constant_zero_apply, ← Equiv.sum_comp (ValueIdx.contrEquiv1 dot_S256x16_S16x4096_S256x4096_1_0_0_1_n_n 16 rfl rfl).symm]
  refine Finset.sum_congr rfl fun k _ => ?_
  have hk := ValueIdx.contrEquiv1_symm_val dot_S256x16_S16x4096_S256x4096_1_0_0_1_n_n 16 rfl rfl k
  have el : dot_S256x16_S16x4096_S256x4096_1_0_0_1_n_n.lhsIdx (ix2 p q) ((ValueIdx.contrEquiv1 dot_S256x16_S16x4096_S256x4096_1_0_0_1_n_n 16 rfl rfl).symm k) = ix2 p k := funext fun a => Fin.ext (by
    match a with
    | ⟨0, _⟩ => exact lhs_up_0 _ _
    | ⟨1, _⟩ => exact (lhs_up_1 _ _).trans hk)
  have er : dot_S256x16_S16x4096_S256x4096_1_0_0_1_n_n.rhsIdx (ix2 p q) ((ValueIdx.contrEquiv1 dot_S256x16_S16x4096_S256x4096_1_0_0_1_n_n 16 rfl rfl).symm k) = ix2 k q := funext fun a => Fin.ext (by
    match a with
    | ⟨0, _⟩ => exact (rhs_up_0 _ _).trans hk
    | ⟨1, _⟩ => exact rhs_up_1 _ _)
  rw [el, er]

/-! ## The gate column and a weight slab -/

/-- The column "adapter word = c", widened, converted and spread along the features, reads the token's gate. -/
theorem gate_col (v : IVec S256x1 32) (c : BitVec 32) (p : Fin 256) (h : Fin 4096) :
    (broadcastTo S256x4096 (sitofp (F := Ideal) .f32 (extui 32 (cmpi .eq v (broadcast S256x1 c)) natLt_1_32)) broadcasts_S256x1_S256x4096 : FVec Ideal S256x4096 .f32) (ix2 p h)
      = gate (v (ix2 p (0 : Fin 1))) c := by
  refine (broadcastTo_apply _ broadcasts_S256x1_S256x4096 (ix2 p h) (ix2 p (0 : Fin 1)) (fun a => ?_)).trans ?_
  · match a with
    | ⟨0, _⟩ => show p.val = if (256 : Nat) = 1 then 0 else p.val; rw [if_neg (by decide)]
    | ⟨1, _⟩ => show 0 = if (1 : Nat) = 1 then 0 else h.val; rw [if_pos rfl]
  · exact gate_of_sitofp _ _

/-- Slab k of a weight table, loaded as a 1 × 16 × 4096 piece and recast to 16 × 4096, reads the table at (k, r, h). -/
theorem slab_apply (x : Vec Ideal S8x16x4096 .f32) (k : Nat) (hk : k < 8)
    (inb : ∀ a, (![k, 0, 0] : Fin 3 → Nat) a + S1x16x4096.size a ≤ S8x16x4096.size a) (r : Fin 16) (h : Fin 4096) :
    (shapeCast S16x4096 (View.ld x (Rect.unit (s := S8x16x4096) ![k, 0, 0] S1x16x4096.size inb)) shapeCasts_S1x16x4096_S16x4096 : FVec Ideal S16x4096 .f32) (ix2 r h)
      = x (ix3 (⟨k, hk⟩ : Fin 8) r h) := by
  refine (shapeCast_apply _ shapeCasts_S1x16x4096_S16x4096 (ix2 r h) (ix3 (0 : Fin 1) r h) ?_).trans ?_
  · rw [Shape.rowMajor_val_three, Shape.rowMajor_val_two]
    show (0 * 16 + r.val) * 4096 + h.val = r.val * 4096 + h.val
    omega
  · show x _ = x _
    congr 1
    funext a; apply Fin.ext
    match a with
    | ⟨0, _⟩ => show k + 1 * 0 = k; omega
    | ⟨1, _⟩ => show 0 + 1 * r.val = r.val; omega
    | ⟨2, _⟩ => show 0 + 1 * h.val = h.val; omega

/-! ## One adapter's product at an entry -/

/-- Gate, contract with the transposed down-projection slab, contract with the up-projection slab: at entry (p, q) the
    adapter's contribution for token p and output feature q. -/
theorem adapter_apply (v : IVec S256x1 32) (c : BitVec 32) (xv : FVec Ideal S256x4096 .f32) (at_ b : FVec Ideal S16x4096 .f32)
    (p : Fin 256) (q : Fin 4096) :
    matmul dot_S256x16_S16x4096_S256x4096_1_0_0_1_n_n none
        (truncf .bf16 (matmul dot_S256x4096_S16x4096_S256x16_1_1_0_0_n_n none
          (truncf .bf16 (mulf xv (broadcastTo S256x4096 (sitofp (F := Ideal) .f32 (extui 32 (cmpi .eq v (broadcast S256x1 c)) natLt_1_32)) broadcasts_S256x1_S256x4096)) bitsLt_bf16_f32)
          (truncf .bf16 at_ bitsLt_bf16_f32) (constant (F := Ideal) S256x16 .f32 0x00000000#32)) bitsLt_bf16_f32)
        (truncf .bf16 b bitsLt_bf16_f32) (constant (F := Ideal) S256x4096 .f32 0x00000000#32) (ix2 p q)
      = lowRank (fun h => xv (ix2 p h)) (gate (v (ix2 p (0 : Fin 1))) c) (fun h r => at_ (ix2 r h)) (fun r => b (ix2 r q)) := by
  rw [up_apply]
  unfold lowRank
  refine Finset.sum_congr rfl fun r _ => ?_
  rw [truncf_apply, truncf_apply, down_apply]
  refine congrArg (· * b (ix2 r q)) (Finset.sum_congr rfl fun h _ => ?_)
  rw [truncf_apply, truncf_apply, mulf_apply, gate_col]

/-! ## The whole body at an entry -/

theorem hz2 : (![0, 0] : Fin 2 → Nat) = fun _ => 0 := funext fun a => by fin_cases a <;> rfl

/-- Adapter k's contribution at entry (p, q) of a grid point, from the point's blocks: the adapter words column w,
    the rows xb of x, and the two weight tables (the down-projection's transposed). -/
def blockTerm (w : Vec Ideal S256x1 .i32) (xb : Vec Ideal S256x4096 .f32) (atT bT : Vec Ideal S8x16x4096 .f32)
    (c : BitVec 32) (k : Fin 8) (p : Fin 256) (q : Fin 4096) : EReal :=
  lowRank (fun h => xb (ix2 p h)) (gate (w (ix2 p (0 : Fin 1))) c) (fun h r => atT (ix3 k r h)) (fun r => bT (ix3 k r q))

/-- What the body leaves in the output block at entry (p, q): the res block's entry plus the eight adapters'
    contributions, added one after the other. -/
theorem out_entry (w : Vec Ideal S256x1 .i32) (xb rb : Vec Ideal S256x4096 .f32) (atT bT : Vec Ideal S8x16x4096 .f32)
    (p : Fin 256) (q : Fin 4096) :
    out0_5 (F := Ideal) w xb rb atT bT (ix2 p q)
      = rb (ix2 p q) + blockTerm w xb atT bT 0#32 0 p q + blockTerm w xb atT bT 1#32 1 p q + blockTerm w xb atT bT 2#32 2 p q
        + blockTerm w xb atT bT 3#32 3 p q + blockTerm w xb atT bT 4#32 4 p q + blockTerm w xb atT bT 5#32 5 p q
        + blockTerm w xb atT bT 6#32 6 p q + blockTerm w xb atT bT 7#32 7 p q := by
  unfold out0_5
  rw [View.canon_unit_zero hz2]
  simp only [View.ld_unit_zero (S := S256x4096) hz2, View.ld_unit_zero (S := S256x1) hz2]
  unfold k0_pay10 k0_pay9 k0_pay8 k0_pay7 k0_pay6 k0_pay5 k0_pay4 k0_pay3 k0_pay2 k0_pay1
  dsimp only
  simp only [addf_apply, adapter_apply, shapeCast_self,
    slab_apply _ 0 (by decide), slab_apply _ 1 (by decide), slab_apply _ 2 (by decide), slab_apply _ 3 (by decide),
    slab_apply _ 4 (by decide), slab_apply _ 5 (by decide), slab_apply _ 6 (by decide), slab_apply _ 7 (by decide)]
  rfl

end Cert.KernelIdeal.Block

end
-- ==== Proof.Arrays.lean ====
/-
  The kernel's result array as one function of the argument arrays.

  The 64 grid points cut the 16384 tokens into consecutive groups of 256: point t is handed rows 256·t … 256·t + 255 of
  the adapter words (first recast to a column), of x and of res, and both weight tables whole — the down-projection
  A after the host exchanged its last two axes, so its entry (n, r, h) is A[n, h, r].  What the point writes back at
  entry (p, q) of its output block is therefore res[i, q] plus the eight adapters' contributions for token
  i = 256·t + p (the body's value, entry by entry, with every block entry replaced by the array entry it was fetched
  from), which is entry (i, q) of the whole-array function G.  The 64 output blocks tile the result array, so after
  the run the array is G of the arguments.
-/
import proofs.«101251_j65738769433003_1_alg».proof.Proof.Gen.KernelIdeal.Value
import proofs.«101251_j65738769433003_1_alg».proof.Proof.Block
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Idealize.ShloMosaic.ValueIdx Cert.LowRank Cert.KernelIdeal.Block

variable {F : FTy → Type} [FloatOps F]
variable (m : (ℓ : Loc nD τ sig) → Buf (Elt F) ℓ) (ρ : Dev nD → PrngReg)

/-! ## The two arrays the host writes before the launch -/

/-- The adapter words as the launch finds them: the argument recast to a 16384 × 1 column. -/
theorem words_col (c : Dev nD) :
    (V m c main_v0 : S16384x1.Idx → Elt F .i32)
      = shapeCast S16384x1 (m ((c : Thread nD τ).loc main_arg4) : S16384.Idx → Elt F .i32) shapeCasts_S16384_S16384x1 := by
  dsimp only [Gen.V, Gen.hostOps0]
  after_results
  rfl

/-- The down-projection as the launch finds it: the argument with its last two axes exchanged. -/
theorem down_T (c : Dev nD) :
    (V m c main_v1 : S8x16x4096.Idx → Elt F .f32)
      = transpose S8x16x4096 [0, 2, 1] (m ((c : Thread nD τ).loc main_arg2) : S8x4096x16.Idx → Elt F .f32) transposes_S8x4096x16_S8x16x4096_0_2_1 := by
  dsimp only [Gen.V, Gen.hostOps0]
  after_results

/-! ## Where each block sits in its array -/

/-- The row windows (adapter words, x, res, result) are at block (t, 0) at point t. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_5.index t (0 : Fin 2) = t.val ∧ win0_5.index t (1 : Fin 2) = 0 :=
  (by decide +kernel : ∀ t : Fin grid0.N, _)

/-- The two weight tables are handed over whole at every point. -/
theorem idx_tables : ∀ t : Fin cfg0.N, win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0 :=
  (by decide +kernel : ∀ t : Fin grid0.N, _)

/-- Point t's block of adapter words is rows 256·t … of the argument. -/
theorem words_apply (c : Dev nD) (t : Fin cfg0.N) (y : S256x1.Idx) (k : S16384.Idx)
    (hk0 : (k 0).val = 256 * t.val + (y 0).val) :
    (iblk m c 0 t : Vec F S256x1 .i32) y = (m ((c : Thread nD τ).loc main_arg4) : S16384.Idx → Elt F .i32) k := by
  obtain ⟨e0, e1, -, -, -, -, -, -⟩ := idx_rows t
  unfold iblk
  rw [View.read_apply]
  show V m c main_v0 _ = m (c.tc.loc main_arg4) _
  rw [words_col]
  refine shapeCast_apply _ shapeCasts_S16384_S16384x1 _ k ?_
  rw [Shape.rowMajor_val_one, Shape.rowMajor_val_two]
  have hy1 : (y 1).val < 1 := (y 1).isLt
  show (k 0).val = (win0_0.index t 0 * 256 + 1 * (y 0).val) * 1 + (win0_0.index t 1 * 1 + 1 * (y 1).val)
  rw [e0, e1, hk0]; omega

/-- Point t's block of x is rows 256·t … of the argument. -/
theorem xrows_apply (c : Dev nD) (t : Fin cfg0.N) (y : S256x4096.Idx) (k : S16384x4096.Idx)
    (hk0 : (k 0).val = 256 * t.val + (y 0).val) (hk1 : (k 1).val = (y 1).val) :
    (iblk m c 1 t : Vec F S256x4096 .f32) y = (m ((c : Thread nD τ).loc main_arg1) : S16384x4096.Idx → Elt F .f32) k := by
  obtain ⟨-, -, e0, e1, -, -, -, -⟩ := idx_rows t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * (y 0).val = (k 0).val; rw [e0, hk0]; omega
  | ⟨1, _⟩ => show win0_1.index t 1 * 4096 + 1 * (y 1).val = (k 1).val; rw [e1, hk1]; omega

/-- Point t's block of res is rows 256·t … of the argument. -/
theorem resrows_apply (c : Dev nD) (t : Fin cfg0.N) (y : S256x4096.Idx) (k : S16384x4096.Idx)
    (hk0 : (k 0).val = 256 * t.val + (y 0).val) (hk1 : (k 1).val = (y 1).val) :
    (iblk m c 2 t : Vec F S256x4096 .f32) y = (m ((c : Thread nD τ).loc main_arg0) : S16384x4096.Idx → Elt F .f32) k := by
  obtain ⟨-, -, -, -, e0, e1, -, -⟩ := idx_rows t
  unfold iblk
  rw [View.read_apply]
  show V m c main_arg0 _ = m (c.tc.loc main_arg0) _
  rw [V_main_arg0]
  congr 1
  funext a
  apply Fin.ext
  match a with
  | ⟨0, _⟩ => show win0_2.index t 0 * 256 + 1 * (y 0).val = (k 0).val; rw [e0, hk0]; omega
  | ⟨1, _⟩ => show win0_2.index t 1 * 4096 + 1 * (y 1).val = (k 1).val; rw [e1, hk1]; omega

/-- The down-projection table a point is handed, at (n, r, h), is the argument at (n, h, r). -/
theorem downT_apply (c : Dev nD) (t : Fin cfg0.N) (y : S8x16x4096.Idx) (k : S8x4096x16.Idx)
    (hk0 : (k 0).val = (y 0).val) (hk1 : (k 1).val = (y 2).val) (hk2 : (k 2).val = (y 1).val) :
    (iblk m c 3 t : Vec F S8x16x4096 .f32) y = (m ((c : Thread nD τ).loc main_arg2) : S8x4096x16.Idx → Elt F .f32) k := by
  obtain ⟨e0, e1, e2, -, -, -⟩ := idx_tables t
  unfold iblk
  rw [View.read_apply]
  show V m c main_v1 _ = m (c.tc.loc main_arg2) _
  rw [down_T]
  refine transpose_apply _ _ transposes_S8x4096x16_S8x16x4096_0_2_1 _ k (fun b => ?_)
  match b with
  | ⟨0, _⟩ => show (k 0).val = win0_3.index t 0 * 8 + 1 * (y 0).val; rw [e0, hk0]; omega
  | ⟨1, _⟩ => show (k 2).val = win0_3.index t 1 * 16 + 1 * (y 1).val; rw [e1, hk2]; omega
  | ⟨2, _⟩ => show (k 1).val = win0_3.index t 2 * 4096 + 1 * (y 2).val; rw [e2, hk1]; omega

/-- The up-projection table a point is handed is the argument. -/
theorem upT_apply (c : Dev nD) (t : Fin cfg0.N) (y : S8x16x4096.Idx) :
    (iblk m c 4 t : Vec F S8x16x4096 .f32) y = (m ((c : Thread nD τ).loc main_arg3) : S8x16x4096.Idx → Elt F .f32) y := by
  obtain ⟨-, -, -, e0, e1, e2⟩ := idx_tables t
  unfold iblk
  rw [View.read_apply]
  show V m c main_arg3 _ = m (c.tc.loc main_arg3) _
  rw [V_main_arg3]
  congr 1
  funext a
  apply Fin.ext
  match a with
  | ⟨0, _⟩ => show win0_4.index t 0 * 8 + 1 * (y 0).val = (y 0).val; rw [e0]; omega
  | ⟨1, _⟩ => show win0_4.index t 1 * 16 + 1 * (y 1).val = (y 1).val; rw [e1]; omega
  | ⟨2, _⟩ => show win0_4.index t 2 * 4096 + 1 * (y 2).val = (y 2).val; rw [e2]; omega

end Cert.KernelIdeal.Arrays

namespace Cert.KernelIdeal.Arrays

open Cert.KernelIdeal Cert.KernelIdeal.Gen Cert.KernelIdeal.Value Idealize.ShloMosaic.ValueIdx Cert.LowRank Cert.KernelIdeal.Block

variable (m : (ℓ : Loc nD τ sig) → Buf (Elt Ideal) ℓ) (ρ : Dev nD → PrngReg)

/-! ## A point's contribution is the array function's -/

/-- The whole-array function of the arguments in memory. -/
abbrev result (c : Dev nD) : S16384x4096.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Adapter k's contribution at entry (p, q) of point t, computed from the point's blocks, is its contribution to
    entry i = (256·t + p, q) of the array function. -/
theorem block_term_eq (c : Dev nD) (t : Fin cfg0.N) (cw : BitVec 32) (k : Fin 8) (p : Fin 256) (q : Fin 4096)
    (i : S16384x4096.Idx) (hi0 : (i 0).val = 256 * t.val + p.val) (hi1 : (i 1).val = q.val) :
    blockTerm (iblk m c 0 t) (iblk m c 1 t) (iblk m c 3 t) (iblk m c 4 t) cw k p q
      = term (m ((c : Thread nD τ).loc main_arg1)) (m ((c : Thread nD τ).loc main_arg2)) (m ((c : Thread nD τ).loc main_arg3))
          (m ((c : Thread nD τ).loc main_arg4)) cw k i := by
  unfold blockTerm term
  have h1 : (fun h : Fin 4096 => (iblk m c 1 t : Vec Ideal S256x4096 .f32) (ix2 p h))
      = fun h => (m ((c : Thread nD τ).loc main_arg1) : S16384x4096.Idx → EReal) (ix2 (i 0) h) :=
    funext fun h => xrows_apply m c t (ix2 p h) (ix2 (i 0) h) hi0 rfl
  have h0 : (iblk m c 0 t : Vec Ideal S256x1 .i32) (ix2 p (0 : Fin 1))
      = (m ((c : Thread nD τ).loc main_arg4) : S16384.Idx → BitVec 32) (ix1 (i 0)) :=
    words_apply m c t (ix2 p (0 : Fin 1)) (ix1 (i 0)) hi0
  have h3 : (fun (h : Fin 4096) (r : Fin 16) => (iblk m c 3 t : Vec Ideal S8x16x4096 .f32) (ix3 k r h))
      = fun h r => (m ((c : Thread nD τ).loc main_arg2) : S8x4096x16.Idx → EReal) (ix3 k h r) :=
    funext fun h => funext fun r => downT_apply m c t (ix3 k r h) (ix3 k h r) rfl rfl rfl
  have h4 : (fun r : Fin 16 => (iblk m c 4 t : Vec Ideal S8x16x4096 .f32) (ix3 k r q))
      = fun r => (m ((c : Thread nD τ).loc main_arg3) : S8x16x4096.Idx → EReal) (ix3 k r (i 1)) :=
    funext fun r => (upT_apply m c t (ix3 k r q)).trans (congrArg _ (funext fun a => Fin.ext (by
      match a with
      | ⟨0, _⟩ => rfl
      | ⟨1, _⟩ => rfl
      | ⟨2, _⟩ => exact hi1.symm)))
  rw [h1, h0, h3, h4]

/-! ## What a point writes back, the cover, and the array after the run -/

/-- Point t writes back block t of the array function. -/
theorem flushed_eq (c : Dev nD) (t : Fin cfg0.N) :
    (dats m 0 c).flushed 5 t = ((cfg0.win 5).blk t).view.read (Elt Ideal) (result m c) := by
  rw [flushed5]
  obtain ⟨-, -, -, -, -, -, e0, e1⟩ := idx_rows t
  funext j
  obtain ⟨p, q, rfl⟩ : ∃ (p : Fin 256) (q : Fin 4096), j = ix2 p q := ⟨j 0, j 1, eq_ix2 j⟩
  show out0_5 (iblk m c 0 t) (iblk m c 1 t) (iblk m c 2 t) (iblk m c 3 t) (iblk m c 4 t) (ix2 p q)
    = result m c (((cfg0.win 5).blk t).view.emb (ix2 p q))
  have hi0 : ((((cfg0.win 5).blk t).view.emb (ix2 p q)) 0).val = 256 * t.val + p.val := by
    show win0_5.index t 0 * 256 + 1 * p.val = _; rw [e0]; omega
  have hi1 : ((((cfg0.win 5).blk t).view.emb (ix2 p q)) 1).val = q.val := by
    show win0_5.index t 1 * 4096 + 1 * q.val = _; rw [e1]; omega
  refine (out_entry (iblk m c 0 t) (iblk m c 1 t) (iblk m c 2 t) (iblk m c 3 t) (iblk m c 4 t) p q).trans ?_
  have key : ∀ (cw : BitVec 32) (k : Fin 8),
      blockTerm (iblk m c 0 t) (iblk m c 1 t) (iblk m c 3 t) (iblk m c 4 t) cw k p q
        = term (m ((c : Thread nD τ).loc main_arg1)) (m ((c : Thread nD τ).loc main_arg2)) (m ((c : Thread nD τ).loc main_arg3))
            (m ((c : Thread nD τ).loc main_arg4)) cw k (((cfg0.win 5).blk t).view.emb (ix2 p q)) :=
    fun cw k => block_term_eq m c t cw k p q _ hi0 hi1
  rw [key, key, key, key, key, key, key, key,
    resrows_apply m c t (ix2 p q) (((cfg0.win 5).blk t).view.emb (ix2 p q)) hi0 hi1]
  rfl

/-- An index of the result array is in point t's block iff its row is among the point's 256. -/
theorem mem_blk (t : Fin cfg0.N) (i : S16384x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v2).slice (win0_5.rect t)).set ↔ _
  rw [View.set_slice_whole, Rect.mem_set_unit]
  exact Iff.rfl

/-- Every index of the result array is in the block of the point its row falls in. -/
theorem cover (i : S16384x4096.Idx) : ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 64 := N_0
  refine ⟨⟨(i 0).val / 256, by rw [hN]; omega⟩, flush0_5 _, ?_⟩
  obtain ⟨-, -, -, -, -, -, e0, e1⟩ := idx_rows ⟨(i 0).val / 256, by rw [hN]; omega⟩
  rw [mem_blk]
  intro a
  match a with
  | ⟨0, _⟩ => show win0_5.index _ 0 * 256 ≤ (i 0).val ∧ (i 0).val < win0_5.index _ 0 * 256 + 256; rw [e0]; show (i 0).val / 256 * 256 ≤ (i 0).val ∧ (i 0).val < (i 0).val / 256 * 256 + 256; omega
  | ⟨1, _⟩ => show win0_5.index _ 1 * 4096 ≤ (i 1).val ∧ (i 1).val < win0_5.index _ 1 * 4096 + 4096; rw [e1]; omega

/-- After the run the result array is the array function of the arguments. -/
theorem final (c : Dev nD) : (dats m 0 c).arrAt 5 cfg0.N = result m c :=
  (dats m 0 c).arrAt_eq_of_cover 5 (result m c) (fun t _ => flushed_eq m c t) cover

/-- The kernel's run, read: the result array at the array function of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Arrays

end
-- ==== Proof.RefValue.lean ====
/-
  The reference program's result as the same whole-array function.

  The reference treats the eight adapters one after the other, each on the full arrays: it builds the adapter's gate
  column (1 where the token's adapter word is the adapter's), multiplies x by it along the features, takes the product
  with slab n of the down-projection A (4096 × 16) and then with slab n of the up-projection B (16 × 4096), multiplies
  the result by the gate column once more, and adds it to a running sum that started as zero; res is added last.
  Each adapter's stage is one function of four arrays (x, the gate column, the two slabs); read at entry (i, q) it is
  the adapter's contribution times the token's gate.  The law of the specification (a contribution times its own gate is
  the contribution; addition is associative) then identifies the result with the array function G.
-/
import proofs.«101251_j65738769433003_1_alg».proof.Proof.Gen.ReferenceIdeal.Read
import proofs.«101251_j65738769433003_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.LowRank

/-! ## The pieces of one adapter's stage -/

/-- The gate column of the adapter whose word is c. -/
def gateCol (x4 : IVec S16384 32) (c : BitVec 32) : FVec Ideal S16384x1 .f32 :=
  uitofp .f32 (broadcastInDim S16384x1 ![0] bcast_S16384_S16384x1_0 (cmpi .eq x4 (broadcastInDim S16384 ![] bcast_S_S16384 (constantI S_ 32 c))))

/-- It reads the token's gate. -/
theorem gateCol_apply (x4 : IVec S16384 32) (c : BitVec 32) (i : Fin 16384) :
    gateCol x4 c (ix2 i (0 : Fin 1)) = gate (x4 (ix1 i)) c := by
  unfold gateCol
  show FloatOps.uitofp (F := Ideal) .f32 (broadcastInDim S16384x1 ![0] bcast_S16384_S16384x1_0 (cmpi .eq x4 (broadcastInDim S16384 ![] bcast_S_S16384 (constantI S_ 32 c))) (ix2 i (0 : Fin 1))) = _
  rw [broadcastInDim_apply _ bcast_S16384_S16384x1_0 _ (ix2 i (0 : Fin 1)) (ix1 i) (fun a => match a with
    | ⟨0, _⟩ => by show i.val = if (16384 : Nat) = 1 then 0 else i.val; rw [if_neg (by decide)])]
  exact gate_of_uitofp _ _

/-- Slab k of the down-projection, recast to 4096 × 16. -/
def slabA (x2 : FVec Ideal S8x4096x16 .f32) (k : Nat) (hs : S8x4096x16.Slices ![k, 0, 0] S1x4096x16) : FVec Ideal S4096x16 .f32 :=
  shapeCast S4096x16 (extractStridedSlice S1x4096x16 ![k, 0, 0] x2 hs) shapeCasts_S1x4096x16_S4096x16

theorem slabA_apply (x2 : FVec Ideal S8x4096x16 .f32) (k : Nat) (hk : k < 8) (hs : S8x4096x16.Slices ![k, 0, 0] S1x4096x16)
    (h : Fin 4096) (r : Fin 16) : slabA x2 k hs (ix2 h r) = x2 (ix3 (⟨k, hk⟩ : Fin 8) h r) := by
  unfold slabA
  refine (shapeCast_apply _ shapeCasts_S1x4096x16_S4096x16 (ix2 h r) (ix3 (0 : Fin 1) h r) ?_).trans ?_
  · rw [Shape.rowMajor_val_three, Shape.rowMajor_val_two]
    show (0 * 4096 + h.val) * 16 + r.val = h.val * 16 + r.val
    omega
  · refine extractStridedSlice_apply ![k, 0, 0] x2 hs (ix3 (0 : Fin 1) h r) (ix3 (⟨k, hk⟩ : Fin 8) h r) (fun a => ?_)
    match a with
    | ⟨0, _⟩ => show k = k + 0; omega
    | ⟨1, _⟩ => show h.val = 0 + h.val; omega
    | ⟨2, _⟩ => show r.val = 0 + r.val; omega

/-- Slab k of the up-projection, recast to 16 × 4096. -/
def slabB (x3 : FVec Ideal S8x16x4096 .f32) (k : Nat) (hs : S8x16x4096.Slices ![k, 0, 0] S1x16x4096) : FVec Ideal S16x4096 .f32 :=
  shapeCast S16x4096 (extractStridedSlice S1x16x4096 ![k, 0, 0] x3 hs) shapeCasts_S1x16x4096_S16x4096

theorem slabB_apply (x3 : FVec Ideal S8x16x4096 .f32) (k : Nat) (hk : k < 8) (hs : S8x16x4096.Slices ![k, 0, 0] S1x16x4096)
    (r : Fin 16) (q : Fin 4096) : slabB x3 k hs (ix2 r q) = x3 (ix3 (⟨k, hk⟩ : Fin 8) r q) := by
  unfold slabB
  refine (shapeCast_apply _ shapeCasts_S1x16x4096_S16x4096 (ix2 r q) (ix3 (0 : Fin 1) r q) ?_).trans ?_
  · rw [Shape.rowMajor_val_three, Shape.rowMajor_val_two]
    show (0 * 16 + r.val) * 4096 + q.val = r.val * 4096 + q.val
    omega
  · refine extractStridedSlice_apply ![k, 0, 0] x3 hs (ix3 (0 : Fin 1) r q) (ix3 (⟨k, hk⟩ : Fin 8) r q) (fun a => ?_)
    match a with
    | ⟨0, _⟩ => show k = k + 0; omega
    | ⟨1, _⟩ => show r.val = 0 + r.val; omega
    | ⟨2, _⟩ => show q.val = 0 + q.val; omega

/-- The first product at entry (i, r): the sum over the 4096 features. -/
theorem down_apply (L : FVec Ideal S16384x4096 .f32) (R : FVec Ideal S4096x16 .f32) (i : Fin 16384) (r : Fin 16) :
    Host.dotGeneral dot_S16384x4096_S4096x16_S16384x16_1_0_0_1_n_n none L R (ix2 i r) = ∑ h : Fin 4096, L (ix2 i h) * R (ix2 h r) := by
  simp only [Host.dotGeneral]
  rw [Ideal.dotGeneral_apply, ← Equiv.sum_comp (ValueIdx.contrEquiv1 dot_S16384x4096_S4096x16_S16384x16_1_0_0_1_n_n 4096 rfl rfl).symm]
  refine Finset.sum_congr rfl fun k _ => ?_
  have hk := ValueIdx.contrEquiv1_symm_val dot_S16384x4096_S4096x16_S16384x16_1_0_0_1_n_n 4096 rfl rfl k
  have el : dot_S16384x4096_S4096x16_S16384x16_1_0_0_1_n_n.lhsIdx (ix2 i r) ((ValueIdx.contrEquiv1 dot_S16384x4096_S4096x16_S16384x16_1_0_0_1_n_n 4096 rfl rfl).symm k) = ix2 i k := funext fun a => Fin.ext (by
    match a with
    | ⟨0, _⟩ => exact lhs_main_v9_0 _ _
    | ⟨1, _⟩ => exact (lhs_main_v9_1 _ _).trans hk)
  have er : dot_S16384x4096_S4096x16_S16384x16_1_0_0_1_n_n.rhsIdx (ix2 i r) ((ValueIdx.contrEquiv1 dot_S16384x4096_S4096x16_S16384x16_1_0_0_1_n_n 4096 rfl rfl).symm k) = ix2 k r := funext fun a => Fin.ext (by
    match a with
    | ⟨0, _⟩ => exact (rhs_main_v9_0 _ _).trans hk
    | ⟨1, _⟩ => exact rhs_main_v9_1 _ _)
  rw [el, er]

/-- The second product at entry (i, q): the sum over the 16 ranks. -/
theorem up_apply (L : FVec Ideal S16384x16 .f32) (R : FVec Ideal S16x4096 .f32) (i : Fin 16384) (q : Fin 4096) :
    Host.dotGeneral dot_S16384x16_S16x4096_S16384x4096_1_0_0_1_n_n none L R (ix2 i q) = ∑ r : Fin 16, L (ix2 i r) * R (ix2 r q) := by
  simp only [Host.dotGeneral]
  rw [Ideal.dotGeneral_apply, ← Equiv.sum_comp (ValueIdx.contrEquiv1 dot_S16384x16_S16x4096_S16384x4096_1_0_0_1_n_n 16 rfl rfl).symm]
  refine Finset.sum_congr rfl fun k _ => ?_
  have hk := ValueIdx.contrEquiv1_symm_val dot_S16384x16_S16x4096_S16384x4096_1_0_0_1_n_n 16 rfl rfl k
  have el : dot_S16384x16_S16x4096_S16384x4096_1_0_0_1_n_n.lhsIdx (ix2 i q) ((ValueIdx.contrEquiv1 dot_S16384x16_S16x4096_S16384x4096_1_0_0_1_n_n 16 rfl rfl).symm k) = ix2 i k := funext fun a => Fin.ext (by
    match a with
    | ⟨0, _⟩ => exact lhs_main_v12_0 _ _
    | ⟨1, _⟩ => exact (lhs_main_v12_1 _ _).trans hk)
  have er : dot_S16384x16_S16x4096_S16384x4096_1_0_0_1_n_n.rhsIdx (ix2 i q) ((ValueIdx.contrEquiv1 dot_S16384x16_S16x4096_S16384x4096_1_0_0_1_n_n 16 rfl rfl).symm k) = ix2 k q := funext fun a => Fin.ext (by
    match a with
    | ⟨0, _⟩ => exact (rhs_main_v12_0 _ _).trans hk
    | ⟨1, _⟩ => exact rhs_main_v12_1 _ _)
  rw [el, er]

/-- A column spread along the features reads the column's entry of the row. -/
theorem spread_apply (g : FVec Ideal S16384x1 .f32) (i : Fin 16384) (h : Fin 4096) :
    broadcastInDim S16384x4096 ![0, 1] bcast_S16384x1_S16384x4096_0_1 g (ix2 i h) = g (ix2 i (0 : Fin 1)) :=
  broadcastInDim_apply _ bcast_S16384x1_S16384x4096_0_1 g (ix2 i h) (ix2 i (0 : Fin 1)) (fun a => match a with
    | ⟨0, _⟩ => by show i.val = if (16384 : Nat) = 1 then 0 else i.val; rw [if_neg (by decide)]
    | ⟨1, _⟩ => by show 0 = if (1 : Nat) = 1 then 0 else h.val; rw [if_pos rfl])

/-- One adapter's stage: gate x, contract with the down-projection slab, then with the up-projection slab, gate again. -/
def stage (x1 : FVec Ideal S16384x4096 .f32) (g : FVec Ideal S16384x1 .f32) (a : FVec Ideal S4096x16 .f32) (b : FVec Ideal S16x4096 .f32) :
    FVec Ideal S16384x4096 .f32 :=
  mulf (Host.dotGeneral dot_S16384x16_S16x4096_S16384x4096_1_0_0_1_n_n none
      (Host.dotGeneral dot_S16384x4096_S4096x16_S16384x16_1_0_0_1_n_n none
        (mulf x1 (broadcastInDim S16384x4096 ![0, 1] bcast_S16384x1_S16384x4096_0_1 g)) a) b)
    (broadcastInDim S16384x4096 ![0, 1] bcast_S16384x1_S16384x4096_0_1 g)

/-- At entry (i, q) a stage is the adapter's contribution times the token's gate. -/
theorem stage_apply (x1 : FVec Ideal S16384x4096 .f32) (g : FVec Ideal S16384x1 .f32) (a : FVec Ideal S4096x16 .f32) (b : FVec Ideal S16x4096 .f32)
    (i : Fin 16384) (q : Fin 4096) :
    stage x1 g a b (ix2 i q)
      = lowRank (fun h => x1 (ix2 i h)) (g (ix2 i (0 : Fin 1))) (fun h r => a (ix2 h r)) (fun r => b (ix2 r q)) * g (ix2 i (0 : Fin 1)) := by
  unfold stage
  rw [mulf_apply, spread_apply, up_apply]
  unfold lowRank
  refine congrArg (· * g (ix2 i (0 : Fin 1))) (Finset.sum_congr rfl fun r _ => ?_)
  rw [down_apply]
  refine congrArg (· * b (ix2 r q)) (Finset.sum_congr rfl fun h _ => ?_)
  rw [mulf_apply, spread_apply]

/-! ## The result -/

/-- The program's result term is res plus the running sum of the eight stages from zero. -/
theorem result_stages (x0 x1 : FVec Ideal S16384x4096 .f32) (x2 : FVec Ideal S8x4096x16 .f32) (x3 : FVec Ideal S8x16x4096 .f32) (x4 : IVec S16384 32) :
    val_main_v121 (F := Ideal) x0 x1 x2 x3 x4
      = addf x0 (addf (addf (addf (addf (addf (addf (addf (addf (val_main_v0 (F := Ideal))
          (stage x1 (gateCol x4 0#32) (slabA x2 0 slices_S8x4096x16_S1x4096x16_0_0_0) (slabB x3 0 slices_S8x16x4096_S1x16x4096_0_0_0)))
          (stage x1 (gateCol x4 1#32) (slabA x2 1 slices_S8x4096x16_S1x4096x16_1_0_0) (slabB x3 1 slices_S8x16x4096_S1x16x4096_1_0_0)))
          (stage x1 (gateCol x4 2#32) (slabA x2 2 slices_S8x4096x16_S1x4096x16_2_0_0) (slabB x3 2 slices_S8x16x4096_S1x16x4096_2_0_0)))
          (stage x1 (gateCol x4 3#32) (slabA x2 3 slices_S8x4096x16_S1x4096x16_3_0_0) (slabB x3 3 slices_S8x16x4096_S1x16x4096_3_0_0)))
          (stage x1 (gateCol x4 4#32) (slabA x2 4 slices_S8x4096x16_S1x4096x16_4_0_0) (slabB x3 4 slices_S8x16x4096_S1x16x4096_4_0_0)))
          (stage x1 (gateCol x4 5#32) (slabA x2 5 slices_S8x4096x16_S1x4096x16_5_0_0) (slabB x3 5 slices_S8x16x4096_S1x16x4096_5_0_0)))
          (stage x1 (gateCol x4 6#32) (slabA x2 6 slices_S8x4096x16_S1x4096x16_6_0_0) (slabB x3 6 slices_S8x16x4096_S1x16x4096_6_0_0)))
          (stage x1 (gateCol x4 7#32) (slabA x2 7 slices_S8x4096x16_S1x4096x16_7_0_0) (slabB x3 7 slices_S8x16x4096_S1x16x4096_7_0_0))) := rfl

/-- The running sum starts at zero. -/
theorem start_zero (i : S16384x4096.Idx) : val_main_v0 (F := Ideal) i = 0 := by
  rw [val_main_v0_apply, val_main_cst_apply]
  exact Ideal.ofBits_zero_f32

/-- The reference's result is the array function of its arguments. -/
theorem result_eq (x0 x1 : FVec Ideal S16384x4096 .f32) (x2 : FVec Ideal S8x4096x16 .f32) (x3 : FVec Ideal S8x16x4096 .f32) (x4 : IVec S16384 32) :
    val_main_v121 (F := Ideal) x0 x1 x2 x3 x4 = G x0 x1 x2 x3 x4 := by
  rw [result_stages]
  funext j
  obtain ⟨i, q, rfl⟩ : ∃ (i : Fin 16384) (q : Fin 4096), j = ix2 i q := ⟨j 0, j 1, eq_ix2 j⟩
  simp only [addf_apply, stage_apply, gateCol_apply, start_zero,
    slabA_apply _ 0 (by decide), slabA_apply _ 1 (by decide), slabA_apply _ 2 (by decide), slabA_apply _ 3 (by decide),
    slabA_apply _ 4 (by decide), slabA_apply _ 5 (by decide), slabA_apply _ 6 (by decide), slabA_apply _ 7 (by decide),
    slabB_apply _ 0 (by decide), slabB_apply _ 1 (by decide), slabB_apply _ 2 (by decide), slabB_apply _ 3 (by decide),
    slabB_apply _ 4 (by decide), slabB_apply _ 5 (by decide), slabB_apply _ 6 (by decide), slabB_apply _ 7 (by decide)]
  exact sum_from_zero_eq_G x0 x1 x2 x3 x4 (ix2 i q)

end Cert.ReferenceIdeal.RefValue

end
-- ==== Proof.lean ====
/-
  A multi-adapter low-rank update: every token t adds to its row of res the product of its row of x with the
  down-projection A[n] and the up-projection B[n] of the one adapter n its adapter word names,

      out[t, o] = res[t, o] + Σ_n gate_n(t) · ( x[t, ·] · A[n] · B[n] )[o],        gate_n(t) = 1 if word(t) = n, else 0.

  The kernel walks the tokens in 64 groups of 256; for each group it gates the rows of x by the adapter's column,
  multiplies by the transposed slab of A (handed over with its last two axes exchanged) and by the slab of B, and adds
  the eight products onto the res block one after the other.  The reference does the same on the whole arrays, one adapter
  at a time, multiplies each product by the gate column once more, sums the eight from zero and adds res last.

  Over the extended reals both are the array function G of Proof/Spec.lean: a change of float format is the identity, a
  matrix product into a zero accumulator is the plain sum over the contracted index, the two spellings of a gate (a
  one-bit test widened and read signed; the same bit read unsigned) are both 0 or 1, a contribution multiplied by its
  own gate is unchanged (the gate is 1, or every product under the sums already carries a zero factor), and the two
  orders of the nine-term sum agree because addition is associative with unit 0.  No finiteness of the inputs is used.

  Proof/Block.lean reads the kernel body at an entry of a block, Proof/Arrays.lean carries the blocks to the arrays and
  covers the result array by the 64 output blocks, Proof/RefValue.lean reads the reference's stages at an entry.  The two
  kernel frames are the generated ones, the reference's frame is its generated run with the value dropped, and nothing was
  rewritten between the kernel and its idealization.
-/
import proofs.«101251_j65738769433003_1_alg».proof.Defs
import proofs.«101251_j65738769433003_1_alg».proof.Proof.Gen.Kernel
import proofs.«101251_j65738769433003_1_alg».proof.Proof.Gen.Kernel.Skeleton
import proofs.«101251_j65738769433003_1_alg».proof.Proof.Gen.Kernel.Launch
import proofs.«101251_j65738769433003_1_alg».proof.Proof.Gen.Kernel.Points
import proofs.«101251_j65738769433003_1_alg».proof.Proof.Gen.Kernel.Frame
import proofs.«101251_j65738769433003_1_alg».proof.Proof.Gen.KernelIdeal
import proofs.«101251_j65738769433003_1_alg».proof.Proof.Gen.KernelIdeal.Skeleton
import proofs.«101251_j65738769433003_1_alg».proof.Proof.Gen.KernelIdeal.Launch
import proofs.«101251_j65738769433003_1_alg».proof.Proof.Gen.KernelIdeal.Points
import proofs.«101251_j65738769433003_1_alg».proof.Proof.Gen.KernelIdeal.Frame
import proofs.«101251_j65738769433003_1_alg».proof.Proof.Gen.ReferenceIdeal
import proofs.«101251_j65738769433003_1_alg».proof.Proof.Gen.Pre_finite_inputs
import proofs.«101251_j65738769433003_1_alg».proof.Proof.Gen.KernelIdeal.Value
import proofs.«101251_j65738769433003_1_alg».proof.Proof.Gen.ReferenceIdeal.Run
import proofs.«101251_j65738769433003_1_alg».proof.Proof.Gen.ReferenceIdeal.Read
import proofs.«101251_j65738769433003_1_alg».proof.Proof.Arrays
import proofs.«101251_j65738769433003_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at G of the arguments. -/
theorem algebraic : Cert.algebraic_KernelIdeal_ReferenceIdeal := by
  intro m ρ m' ρ' _ hagree
  refine ⟨fun c => Cert.KernelIdeal.Arrays.result m c, Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v121_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
